-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S8192x1024 : Shape := ⟨2, ![8192, 1024]⟩
abbrev S8192x2048 : Shape := ⟨2, ![8192, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S2048x1024 .f32) (main_arg1 : FVec F S8192x1024 .f32) (main_arg2 : FVec F S8192x2048 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Kernel.lean ====
abbrev S2048x1024 : Shape := ⟨2, ![2048, 1024]⟩
abbrev S8192x1024 : Shape := ⟨2, ![8192, 1024]⟩
abbrev S8192x2048 : Shape := ⟨2, ![8192, 2048]⟩
abbrev S8192x1 : Shape := ⟨2, ![8192, 1]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩
abbrev S1024 : Shape := ⟨1, ![1024]⟩
abbrev S256 : Shape := ⟨1, ![256]⟩
abbrev S1x256 : Shape := ⟨2, ![1, 256]⟩
abbrev S_ : Shape := ⟨0, ![]⟩

abbrev nBuf : Space → Nat
  | .hbm => 18
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S8192x2048, .f32⟩
  | .hbm, ⟨3, _⟩ => ⟨S8192x1, .f32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S256x1024, .f32⟩
  | .local _ .vmem, ⟨5, _⟩ => ⟨S256x1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1024, .f32⟩
  | .local _ .vmem, ⟨11, _⟩ => ⟨S1024x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_cst_3 : Ref sig .tc := ⟨.hbm, 13, rfl⟩
abbrev main_v5 : Ref sig .tc := ⟨.hbm, 14, rfl⟩
abbrev main_cst_4 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  reduces_S1024x1024_S1024 : S1024x1024.Reduces [1] S1024
  shapeCasts_S1024_S1024x1 : S1024.ShapeCasts S1024x1
  reduces_S256x1024_S256 : S256x1024.Reduces [1] S256
  shapeCasts_S256_S1x256 : S256.ShapeCasts S1x256
  bitsLt_bf16_f32 : FTy.bits .bf16 < FTy.bits .f32
  broadcasts_S1024x1_S1024x256 : S1024x1.Broadcasts S1024x256
  broadcasts_S1x256_S1024x256 : S1x256.Broadcasts S1024x256
  reduces_S1024x256_S1024 : S1024x256.Reduces [1] S1024
  reducesTo_S8192x1_S_d0_1 : S8192x1.ReducesTo [0, 1] S_
  h_S_ : 0 < S_.numel
  dot_S1024x1024_S256x1024_S1024x256_1_1_0_0_n_n_wf : DotDims.WF S1024x1024 S256x1024 S1024x256 [1] [1] [0] [0] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x2048.size a
  hwx0_1 : ∀ i : grid0.Coords, EltTy.bits .f32 = 32 ∨ (Rect.block (s := S8192x2048) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .f32 = 32 ∨ (Rect.block (s := S2048x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x1024 : Shape := ⟨2, ![2048, 1024]⟩
abbrev S8192x1024 : Shape := ⟨2, ![8192, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x2048 : Shape := ⟨2, ![1, 2048]⟩
abbrev S1024x2048 : Shape := ⟨2, ![1024, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S1024x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S2048x1024_S2048_d1 : S2048x1024.ReducesTo [1] S2048
  bcast_S2048_S1x2048_1 : S2048.BroadcastsInDim S1x2048 (![1] : Fin 1 → Fin S1x2048.rank)
  transposes_S2048x1024_S1024x2048_1_0 : S2048x1024.Transposes [1, 0] S1024x2048
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  reducesTo_S8192_S_d0 : S8192.ReducesTo [0] S_
  reducesTo_S8192x2048_S8192_d1 : S8192x2048.ReducesTo [1] S8192
  dot_S8192x1024_S1024x2048_S8192x2048_1_0_0_1_n_n_wf : DotDims.WF S8192x1024 S1024x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Pieces.lean ====
/-
  The kernel body, case by case, as pure functions of the blocks it loads (at any float instance).
-/
import proofs.«165693_j1580547970481_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz : (![0, 0] : Fin 2 → Nat) = fun _ => 0 := funext fun a => by fin_cases a <;> rfl

variable (c : Dev nD) (i : grid0.Coords)
  (arg2 : Memref sig .tc .vmem S1024x1024 .f32) (harg2 : arg2.IsWhole)
  (arg3 : Memref sig .tc .vmem S1024x256 .f32) (harg3 : arg3.IsWhole)
  (arg4 : Memref sig .tc .vmem S256x1024 .f32) (harg4 : arg4.IsWhole)
  (arg5 : Memref sig .tc .vmem S1024x1 .f32) (harg5 : arg5.IsWhole)
  (arg6 : Memref sig .tc .vmem S1024x1 .f32) (harg6 : arg6.IsWhole)
  (arg7 : Memref sig .tc .vmem S1024x1024 .f32) (harg7 : arg7.IsWhole)
  (arg8 : Memref sig .tc .vmem S1024x1 .f32) (harg8 : arg8.IsWhole)
  (x0 : Vec F S1024x1024 .f32) (x1 : Vec F S1024x256 .f32) (x2 : Vec F S256x1024 .f32)
  (xs0 : Vec F S1024x1024 .f32) (xs1 : Vec F S1024x1 .f32)

/-! ## What each control case leaves in the two accumulators and the two output blocks

At the first dictionary tile of a row block (case A) both accumulators are reset and then updated; at the tiles in
between (case B) they are updated over what the tile before left; at the last tile (case C) they are updated and the two
output blocks are written: the squared residual's row sums from the finished `X·A` accumulator, and the finished
locality accumulator. Each is the body's pure payload term of the blocks it loads. -/

/-- Case A, the `X·A` accumulator: the zero block plus this tile's product. -/
theorem acc_A (hc0 : cond0_0 i) (hc1 : ¬cond0_1 i) :
    sout0_A_0 c i arg2 harg2 arg3 harg3 arg4 harg4 arg5 harg5 arg6 harg6 arg7 harg7 arg8 harg8 hc0 hc1 x0 x1 x2 = k0_pay1 (k0_pay7 x1 x2 (k0_pay3 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1024) hz]
  simp only [View.readAt_eq_ld, harg2.read_unread, harg3.read_unread, harg4.read_unread, harg7.read_unread, harg8.read_unread, View.ld_unit_zero (S := S1024x1024) hz, View.ld_unit_zero (S := S1024x256) hz, View.ld_unit_zero (S := S256x1024) hz, View.ld_unit_zero (S := S1024x1) hz, View.readCov_unit_zero (S := S1024x1024) _ hz, View.readCov_unit_zero (S := S1024x1) _ hz]

/-- Case A, the locality accumulator: the zero column plus this tile's weighted row sums. -/
theorem loc_A (hc0 : cond0_0 i) (hc1 : ¬cond0_1 i) :
    sout0_A_1 c i arg2 harg2 arg3 harg3 arg4 harg4 arg5 harg5 arg6 harg6 arg7 harg7 arg8 harg8 hc0 hc1 x0 x1 x2 = k0_pay6 x0 x1 x2 (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg7.read_unread, harg8.read_unread, View.ld_unit_zero (S := S1024x1024) hz, View.ld_unit_zero (S := S1024x256) hz, View.ld_unit_zero (S := S256x1024) hz, View.ld_unit_zero (S := S1024x1) hz, View.readCov_unit_zero (S := S1024x1024) _ hz, View.readCov_unit_zero (S := S1024x1) _ hz]

/-- Case B, the `X·A` accumulator: what the tile before left plus this tile's product. -/
theorem acc_B (hc0 : ¬cond0_0 i) (hc1 : ¬cond0_1 i) :
    sout0_B_0 c i arg2 harg2 arg3 harg3 arg4 harg4 arg5 harg5 arg6 harg6 arg7 harg7 arg8 harg8 hc0 hc1 x0 x1 x2 xs0 xs1 = k0_pay1 (k0_pay7 x1 x2 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread, View.ld_unit_zero (S := S1024x1024) hz, View.ld_unit_zero (S := S1024x256) hz, View.ld_unit_zero (S := S256x1024) hz, View.ld_unit_zero (S := S1024x1) hz, View.readCov_unit_zero (S := S1024x1024) _ hz, View.readCov_unit_zero (S := S1024x1) _ hz]

/-- Case B, the locality accumulator. -/
theorem loc_B (hc0 : ¬cond0_0 i) (hc1 : ¬cond0_1 i) :
    sout0_B_1 c i arg2 harg2 arg3 harg3 arg4 harg4 arg5 harg5 arg6 harg6 arg7 harg7 arg8 harg8 hc0 hc1 x0 x1 x2 xs0 xs1 = k0_pay6 x0 x1 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread, View.ld_unit_zero (S := S1024x1024) hz, View.ld_unit_zero (S := S1024x256) hz, View.ld_unit_zero (S := S256x1024) hz, View.ld_unit_zero (S := S1024x1) hz, View.readCov_unit_zero (S := S1024x1024) _ hz, View.readCov_unit_zero (S := S1024x1) _ hz]

/-- Case C, the `X·A` accumulator. -/
theorem acc_C (hc0 : ¬cond0_0 i) (hc1 : cond0_1 i) :
    sout0_C_0 c i arg2 harg2 arg3 harg3 arg4 harg4 arg5 harg5 arg6 harg6 arg7 harg7 arg8 harg8 hc0 hc1 x0 x1 x2 xs0 xs1 = k0_pay1 (k0_pay7 x1 x2 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S1024x1024) hz, View.ld_unit_zero (S := S1024x256) hz, View.ld_unit_zero (S := S256x1024) hz, View.ld_unit_zero (S := S1024x1) hz, View.readCov_unit_zero (S := S1024x1024) _ hz, View.readCov_unit_zero (S := S1024x1) _ hz]

/-- Case C, the locality accumulator. -/
theorem loc_C (hc0 : ¬cond0_0 i) (hc1 : cond0_1 i) :
    sout0_C_1 c i arg2 harg2 arg3 harg3 arg4 harg4 arg5 harg5 arg6 harg6 arg7 harg7 arg8 harg8 hc0 hc1 x0 x1 x2 xs0 xs1 = k0_pay6 x0 x1 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S1024x1024) hz, View.ld_unit_zero (S := S1024x256) hz, View.ld_unit_zero (S := S256x1024) hz, View.ld_unit_zero (S := S1024x1) hz, View.readCov_unit_zero (S := S1024x1024) _ hz, View.readCov_unit_zero (S := S1024x1) _ hz]

/-- Case C, the first output block: the row sums of the squared residual against the finished accumulator. -/
theorem outA_C (hc0 : ¬cond0_0 i) (hc1 : cond0_1 i) :
    out0_C_3 c i arg2 harg2 arg3 harg3 arg4 harg4 arg5 harg5 arg6 harg6 arg7 harg7 arg8 harg8 hc0 hc1 x0 x1 x2 xs0 xs1 = k0_pay2 x0 (k0_pay1 (k0_pay7 x1 x2 xs0)) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S1024x1024) hz, View.ld_unit_zero (S := S1024x256) hz, View.ld_unit_zero (S := S256x1024) hz, View.ld_unit_zero (S := S1024x1) hz, View.readCov_unit_zero (S := S1024x1024) _ hz, View.readCov_unit_zero (S := S1024x1) _ hz]

/-- Case C, the second output block: the finished locality accumulator. -/
theorem outB_C (hc0 : ¬cond0_0 i) (hc1 : cond0_1 i) :
    out0_C_4 c i arg2 harg2 arg3 harg3 arg4 harg4 arg5 harg5 arg6 harg6 arg7 harg7 arg8 harg8 hc0 hc1 x0 x1 x2 xs0 xs1 = k0_pay6 x0 x1 x2 xs1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S1024x1024) hz, View.ld_unit_zero (S := S1024x256) hz, View.ld_unit_zero (S := S256x1024) hz, View.ld_unit_zero (S := S1024x1) hz, View.readCov_unit_zero (S := S1024x1024) _ hz, View.readCov_unit_zero (S := S1024x1) _ hz]

end Cert.KernelIdeal.Pieces

end
-- ==== Proof.Spec.lean ====
/-
  The mathematics of the loss, as plain sums over natural-number coordinates.

  For a dictionary `A` (2048 atoms of dimension 1024), targets `Y` (8192 rows of dimension 1024) and codes `X`
  (8192 rows of 2048 coefficients) the loss is

      ½ · mean_b ‖Y_b − (X·A)_b‖²  +  mean_b Σ_k ‖Y_b − A_k‖² · X_{b k} · (1/10),

  where ‖Y_b − A_k‖² is expanded as ‖Y_b‖² − 2·⟨Y_b, A_k⟩ + ‖A_k‖². Every quantity below is an extended real and a
  function of row and column NUMBERS, an array read by `at2` (zero outside its extents, which is never consulted).
  The only law used between two arrangements of the computation is that a sum over `n·T` consecutive numbers is the
  sum over `n` tiles of `T` numbers (`sum_tiles`): addition of extended reals is commutative and associative, so no
  finiteness is needed.
-/
import Idealize.ShloMosaic.PureOps.Ideal
import Idealize.ShloMosaic.PureOps.Ideal.Laws
import Idealize.ShloMosaic.Lib.ValueIdx
import Mathlib.Algebra.BigOperators.Fin

noncomputable section

namespace DictLoss

open Idealize.ShloMosaic Idealize.ShloMosaic.ValueIdx Finset

/-- A sum over `n · T` consecutive numbers, tile by tile. -/
theorem sum_tiles {M : Type*} [AddCommMonoid M] (f : ℕ → M) (T : ℕ) :
    ∀ n : ℕ, ∑ j ∈ range (n * T), f j = ∑ k ∈ range n, ∑ q ∈ range T, f (k * T + q)
  | 0 => by simp
  | n + 1 => by
    rw [Nat.succ_mul, sum_range_add, sum_range_succ, sum_tiles f T n]

/-- An entry of a matrix by row and column numbers (zero outside the matrix). -/
def at2 {n0 n1 : ℕ} (Z : (⟨2, ![n0, n1]⟩ : Shape).Idx → EReal) (a b : ℕ) : EReal :=
  if h : a < n0 ∧ b < n1 then Z (ix2 ⟨a, h.1⟩ ⟨b, h.2⟩) else 0

theorem at2_ix2 {n0 n1 : ℕ} (Z : (⟨2, ![n0, n1]⟩ : Shape).Idx → EReal) (a : Fin n0) (b : Fin n1) :
    at2 Z a.val b.val = Z (ix2 a b) := by
  unfold at2; rw [dif_pos ⟨a.isLt, b.isLt⟩]

theorem at2_idx {n0 n1 : ℕ} (Z : (⟨2, ![n0, n1]⟩ : Shape).Idx → EReal) (j : (⟨2, ![n0, n1]⟩ : Shape).Idx) :
    Z j = at2 Z (j 0).val (j 1).val := by
  have h := at2_ix2 Z (j 0) (j 1)
  rw [h]; exact congrArg Z (eq_ix2 j)

variable (A : (⟨2, ![2048, 1024]⟩ : Shape).Idx → EReal) (Y : (⟨2, ![8192, 1024]⟩ : Shape).Idx → EReal)
  (X : (⟨2, ![8192, 2048]⟩ : Shape).Idx → EReal)

/-- ‖Y_b‖². -/
def ysq (b : ℕ) : EReal := ∑ d ∈ range 1024, at2 Y b d * at2 Y b d
/-- ‖A_k‖². -/
def asq (k : ℕ) : EReal := ∑ d ∈ range 1024, at2 A k d * at2 A k d
/-- ⟨Y_b, A_k⟩. -/
def cross (b k : ℕ) : EReal := ∑ d ∈ range 1024, at2 Y b d * at2 A k d
/-- The expanded squared distance ‖Y_b‖² − 2⟨Y_b, A_k⟩ + ‖A_k‖², the factor 2 as its float pattern. -/
def wgt (b k : ℕ) : EReal := (ysq Y b - Ideal.ofBits .f32 0x40000000#32 * cross A Y b k) + asq A k
/-- The weighted coefficient ‖Y_b − A_k‖² · X_{b k}. -/
def wx (b k : ℕ) : EReal := wgt A Y b k * at2 X b k
/-- The locality term of row `b`. -/
def rowB (b : ℕ) : EReal := ∑ k ∈ range 2048, wx A Y X b k
/-- (X·A)_{b d}. -/
def xa (b d : ℕ) : EReal := ∑ k ∈ range 2048, at2 X b k * at2 A k d
/-- The reconstruction term of row `b`: ‖Y_b − (X·A)_b‖². -/
def rowA (b : ℕ) : EReal := ∑ d ∈ range 1024, (at2 Y b d - xa A X b d) * (at2 Y b d - xa A X b d)

/-- (X·A)_{b d} summed over the first `n` tiles of 256 atoms. -/
def xaTiles (b d n : ℕ) : EReal := ∑ k ∈ range n, ∑ q ∈ range 256, at2 X b (k * 256 + q) * at2 A (k * 256 + q) d
/-- The locality term of row `b` summed over the first `n` tiles of 256 atoms. -/
def rowBTiles (b n : ℕ) : EReal := ∑ k ∈ range n, ∑ q ∈ range 256, wx A Y X b (k * 256 + q)

theorem xaTiles_all (b d : ℕ) : xaTiles A X b d 8 = xa A X b d :=
  (sum_tiles (fun j => at2 X b j * at2 A j d) 256 8).symm
theorem rowBTiles_all (b : ℕ) : rowBTiles A Y X b 8 = rowB A Y X b :=
  (sum_tiles (fun j => wx A Y X b j) 256 8).symm

/-- The loss: both means are a sum from the float zero divided by the float 8192, the factors ½ and 1/10 their float
    patterns (the same words in both programs, never evaluated). -/
def loss : EReal :=
  Ideal.ofBits .f32 0x3F000000#32
      * Ideal.div (Ideal.ofBits .f32 0x00000000#32 + ∑ b ∈ range 8192, rowA A Y X b) (Ideal.ofBits .f32 0x46000000#32)
    + Ideal.div (Ideal.ofBits .f32 0x00000000#32 + ∑ b ∈ range 8192, rowB A Y X b) (Ideal.ofBits .f32 0x46000000#32)
      * Ideal.ofBits .f32 0x3DCCCCCD#32

end DictLoss

end
-- ==== Proof.Blocks.lean ====
/-
  The blocks the kernel sees at a grid point, as entries of the whole arrays.

  The grid is 8 row blocks by 8 dictionary tiles, the tile index running fastest: point `t` is row block `t / 8`,
  tile `t % 8`. Its target block is rows `1024·(t/8) …` of `Y`, its code block those rows and columns
  `256·(t%8) …` of `X`, its dictionary block rows `256·(t%8) …` of `A`.
-/
import proofs.«165693_j1580547970481_1_alg».proof.Proof.Gen.KernelIdeal.Frame
import proofs.«165693_j1580547970481_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx DictLoss

variable (m : (ℓ : Loc nD τ sig) → Buf (Elt Ideal) ℓ)

/-- The dictionary, the targets and the codes as the pallas_call finds them. -/
abbrev Aarr (c : Dev nD) : (⟨2, ![2048, 1024]⟩ : Shape).Idx → EReal := V m c main_arg0
abbrev Yarr (c : Dev nD) : (⟨2, ![8192, 1024]⟩ : Shape).Idx → EReal := V m c main_arg1
abbrev Xarr (c : Dev nD) : (⟨2, ![8192, 2048]⟩ : Shape).Idx → EReal := V m c main_arg2

/-- The three input blocks at a point. -/
abbrev yblk (c : Dev nD) (t : Fin cfg0.N) : Vec Ideal S1024x1024 .f32 := iblk m c 0 t
abbrev xblk (c : Dev nD) (t : Fin cfg0.N) : Vec Ideal S1024x256 .f32 := iblk m c 1 t
abbrev ablk (c : Dev nD) (t : Fin cfg0.N) : Vec Ideal S256x1024 .f32 := iblk m c 2 t

/-- The block indices of the five windows at a point: row block `t / 8`, dictionary tile `t % 8`. -/
theorem idx_y : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx_x : ∀ t : Fin cfg0.N, win0_1.index t (0 : Fin 2) = t.val / 8 ∧ win0_1.index t (1 : Fin 2) = t.val % 8 :=
  (by decide +kernel : ∀ t : Fin grid0.N, win0_1.index t (0 : Fin 2) = t.val / 8 ∧ win0_1.index t (1 : Fin 2) = t.val % 8)
theorem idx_a : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem idx_oa : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)
theorem idx_ob : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

theorem t_lt (t : Fin cfg0.N) : t.val < 64 := lt_of_lt_of_eq t.isLt (show cfg0.N = 64 from N_0)

/-- The target block: entry (r, d) is `Y` at row `1024·(t/8) + r`. -/
theorem yblk_apply (c : Dev nD) (t : Fin cfg0.N) (r d : Fin 1024) :
    yblk m c t (ix2 r d) = at2 (Yarr m c) (t.val / 8 * 1024 + r.val) d.val := by
  have ht := t_lt t
  have hb : t.val / 8 * 1024 + r.val < 8192 := by have := r.isLt; omega
  rw [show at2 (Yarr m c) (t.val / 8 * 1024 + r.val) d.val = Yarr m c (ix2 ⟨_, hb⟩ d) from at2_ix2 (Yarr m c) ⟨_, hb⟩ d]
  unfold yblk iblk
  rw [View.read_apply]
  show V m c main_arg1 _ = V m c main_arg1 _
  congr 1
  funext a
  apply Fin.ext
  match a with
  | ⟨0, _⟩ => show win0_0.index t 0 * 1024 + 1 * r.val = t.val / 8 * 1024 + r.val; rw [(idx_y t).1]; omega
  | ⟨1, _⟩ => show win0_0.index t 1 * 1024 + 1 * d.val = d.val; rw [(idx_y t).2]; omega

/-- The code block: entry (r, q) is `X` at row `1024·(t/8) + r`, column `256·(t%8) + q`. -/
theorem xblk_apply (c : Dev nD) (t : Fin cfg0.N) (r : Fin 1024) (q : Fin 256) :
    xblk m c t (ix2 r q) = at2 (Xarr m c) (t.val / 8 * 1024 + r.val) (t.val % 8 * 256 + q.val) := by
  have ht := t_lt t
  have hb : t.val / 8 * 1024 + r.val < 8192 := by have := r.isLt; omega
  have hq : t.val % 8 * 256 + q.val < 2048 := by have := q.isLt; omega
  rw [show at2 (Xarr m c) (t.val / 8 * 1024 + r.val) (t.val % 8 * 256 + q.val) = Xarr m c (ix2 ⟨_, hb⟩ ⟨_, hq⟩)
    from at2_ix2 (Xarr m c) ⟨_, hb⟩ ⟨_, hq⟩]
  unfold xblk iblk
  rw [View.read_apply]
  show V m c main_arg2 _ = V m c main_arg2 _
  congr 1
  funext a
  apply Fin.ext
  match a with
  | ⟨0, _⟩ => show win0_1.index t 0 * 1024 + 1 * r.val = t.val / 8 * 1024 + r.val; rw [(idx_x t).1]; omega
  | ⟨1, _⟩ => show win0_1.index t 1 * 256 + 1 * q.val = t.val % 8 * 256 + q.val; rw [(idx_x t).2]; omega

/-- The dictionary block: entry (q, d) is `A` at row `256·(t%8) + q`. -/
theorem ablk_apply (c : Dev nD) (t : Fin cfg0.N) (q : Fin 256) (d : Fin 1024) :
    ablk m c t (ix2 q d) = at2 (Aarr m c) (t.val % 8 * 256 + q.val) d.val := by
  have ht := t_lt t
  have hq : t.val % 8 * 256 + q.val < 2048 := by have := q.isLt; omega
  rw [show at2 (Aarr m c) (t.val % 8 * 256 + q.val) d.val = Aarr m c (ix2 ⟨_, hq⟩ d) from at2_ix2 (Aarr m c) ⟨_, hq⟩ d]
  unfold ablk iblk
  rw [View.read_apply]
  show V m c main_arg0 _ = V m c main_arg0 _
  congr 1
  funext a
  apply Fin.ext
  match a with
  | ⟨0, _⟩ => show win0_2.index t 0 * 256 + 1 * q.val = t.val % 8 * 256 + q.val; rw [(idx_a t).1]; omega
  | ⟨1, _⟩ => show win0_2.index t 1 * 1024 + 1 * d.val = d.val; rw [(idx_a t).2]; omega

end Cert.KernelIdeal.Blocks

end
-- ==== Proof.Payload.lean ====
/-
  The kernel body's stored values, read at coordinates, over the extended reals.

  Each stored value of the body is a short chain of pointwise products, sums and differences, lane sums, the casts
  between a row of numbers and a one-column or one-row matrix, the broadcasts of such a column or row over a matrix,
  and two matrix products into a zero accumulator. Pointwise operations read through at an index; every other
  operation has one small lemma below, stated at explicit coordinates. The two matrix products are
      (r, q) ↦ Σ_d Y[r, d] · A[q, d]      (both operands contracted on their second axis), and
      (r, d) ↦ Σ_q X[r, q] · A[q, d]      (the usual product).
  The format narrowing before each product is the identity on extended reals.
-/
import proofs.«165693_j1580547970481_1_alg».proof.Proof.Gen.KernelIdeal.Skeleton
import proofs.«165693_j1580547970481_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The operations that are not pointwise, at coordinates -/

section Ops
variable {α : Type}

/-- The sum along the second axis of a matrix, at row `r`: the sum over the columns of the entries of that row. -/
theorem laneSum_apply {n0 n1 : ℕ} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (r : Fin n0) :
    multiReduction .add [1] ⟨1, ![n0]⟩ v acc h hφ hacc (ix1 r) = ∑ k : Fin n1, v (ix2 r k) := by
  refine (Ideal.multiReduction_add_single v acc h hφ hacc (ix1 r)).trans ?_
  refine Finset.sum_congr rfl fun k _ => congrArg v (funext fun a => Fin.ext ?_)
  match a with
  | ⟨0, _⟩ => rfl
  | ⟨1, _⟩ => rfl

/-- A row of `a` numbers cast to an `[a, 1]` column reads, at `(i, u)`, the row at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Ops

/-! ## The product Σ_d Y[r, d] · A[q, d] -/

theorem lhs_yA_0 (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
theorem lhs_yA_1 (i : S1024x256.Idx) (q : dot_S1024x1024_S256x1024_S1024x256_1_1_0_0_n_n.contr.Idx) :
    (dot_S1024x1024_S256x1024_S1024x256_1_1_0_0_n_n.lhsIdx i q 1).val = (q ⟨0, by decide⟩).val :=
  dot_S1024x1024_S256x1024_S1024x256_1_1_0_0_n_n.lhsIdx_val_of_single rfl i q
theorem rhs_yA_0 (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl
theorem rhs_yA_1 (i : S1024x256.Idx) (q : dot_S1024x1024_S256x1024_S1024x256_1_1_0_0_n_n.contr.Idx) :
    (dot_S1024x1024_S256x1024_S1024x256_1_1_0_0_n_n.rhsIdx i q 1).val = (q ⟨0, by decide⟩).val :=
  dot_S1024x1024_S256x1024_S1024x256_1_1_0_0_n_n.rhsIdx_val_of_single rfl i q

/-- The product of `Y` with `A` transposed, into the zero accumulator, at `(r, q)`. -/
theorem matmul_yA_apply {φ₁ φ₂ : FTy} (y : FVec Ideal S1024x1024 φ₁) (A : FVec Ideal S256x1024 φ₂) (r : Fin 1024) (q : Fin 256) :
    matmul dot_S1024x1024_S256x1024_S1024x256_1_1_0_0_n_n none y A (constant (F := Ideal) S1024x256 .f32 0x00000000#32) (ix2 r q)
      = ∑ d : Fin 1024, y (ix2 r d) * A (ix2 q d) := by
  simp only [matmul]
  rw [Ideal.matmul_constant_zero_apply, ← Equiv.sum_comp (ValueIdx.contrEquiv1 dot_S1024x1024_S256x1024_S1024x256_1_1_0_0_n_n 1024 rfl rfl).symm]
  refine Finset.sum_congr rfl fun k _ => ?_
  have hk := ValueIdx.contrEquiv1_symm_val dot_S1024x1024_S256x1024_S1024x256_1_1_0_0_n_n 1024 rfl rfl k
  have el : dot_S1024x1024_S256x1024_S1024x256_1_1_0_0_n_n.lhsIdx (ix2 r q) ((ValueIdx.contrEquiv1 dot_S1024x1024_S256x1024_S1024x256_1_1_0_0_n_n 1024 rfl rfl).symm k) = ix2 r k := funext fun a => Fin.ext (by
    match a with
    | ⟨0, _⟩ => exact lhs_yA_0 _ _
    | ⟨1, _⟩ => exact (lhs_yA_1 _ _).trans hk)
  have er : dot_S1024x1024_S256x1024_S1024x256_1_1_0_0_n_n.rhsIdx (ix2 r q) ((ValueIdx.contrEquiv1 dot_S1024x1024_S256x1024_S1024x256_1_1_0_0_n_n 1024 rfl rfl).symm k) = ix2 q k := funext fun a => Fin.ext (by
    match a with
    | ⟨0, _⟩ => exact rhs_yA_0 _ _
    | ⟨1, _⟩ => exact (rhs_yA_1 _ _).trans hk)
  rw [el, er]

/-! ## The product Σ_q X[r, q] · A[q, d] -/

theorem lhs_xA_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_xA_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_xA_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_xA_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of `X` with `A`, into the zero accumulator, at `(r, d)`. -/
theorem matmul_xA_apply {φ₁ φ₂ : FTy} (x : FVec Ideal S1024x256 φ₁) (A : FVec Ideal S256x1024 φ₂) (r d : Fin 1024) :
    matmul dot_S1024x256_S256x1024_S1024x1024_1_0_0_1_n_n none x A (constant (F := Ideal) S1024x1024 .f32 0x00000000#32) (ix2 r d)
      = ∑ q : Fin 256, x (ix2 r q) * A (ix2 q d) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 r d) ((ValueIdx.contrEquiv1 dot_S1024x256_S256x1024_S1024x1024_1_0_0_1_n_n 256 rfl rfl).symm k) = ix2 r k := funext fun a => Fin.ext (by
    match a with
    | ⟨0, _⟩ => exact lhs_xA_0 _ _
    | ⟨1, _⟩ => exact (lhs_xA_1 _ _).trans hk)
  have er : dot_S1024x256_S256x1024_S1024x1024_1_0_0_1_n_n.rhsIdx (ix2 r d) ((ValueIdx.contrEquiv1 dot_S1024x256_S256x1024_S1024x1024_1_0_0_1_n_n 256 rfl rfl).symm k) = ix2 k d := funext fun a => Fin.ext (by
    match a with
    | ⟨0, _⟩ => exact (rhs_xA_0 _ _).trans hk
    | ⟨1, _⟩ => exact rhs_xA_1 _ _)
  rw [el, er]

/-! ## The stored values -/

/-- The carried reconstruction is stored as it is. -/
theorem pay1_eq {F : FTy → Type} [FloatOps F] (v : FVec F S1024x1024 .f32) : k0_pay1 v = v := by
  unfold k0_pay1
  exact shapeCast_self v _

/-- The reconstruction accumulator is reset to zero. -/
theorem pay3_apply (j : S1024x1024.Idx) : k0_pay3 (F := Ideal) j = 0 := by
  unfold k0_pay3
  rw [shapeCast_self]
  exact Ideal.ofBits_zero_f32

/-- The locality accumulator is reset to zero. -/
theorem pay4_apply (j : S1024x1.Idx) : k0_pay4 (F := Ideal) j = 0 := by
  unfold k0_pay4
  rw [shapeCast_self]
  exact Ideal.ofBits_zero_f32

/-- The reconstruction accumulator gains this tile's share of `X · A`. -/
theorem pay7_apply (x1 : Vec Ideal S1024x256 .f32) (x2 : Vec Ideal S256x1024 .f32) (acc : Vec Ideal S1024x1024 .f32) (r d : Fin 1024) :
    k0_pay7 x1 x2 acc (ix2 r d) = acc (ix2 r d) + ∑ q : Fin 256, x1 (ix2 r q) * x2 (ix2 q d) := by
  unfold k0_pay7 k0_pay5
  refine (addf_apply _ _ _).trans ?_
  exact congrArg (acc (ix2 r d) + ·) (matmul_xA_apply _ _ r d)

/-- The locality accumulator gains, for each of the tile's atoms, the expanded squared distance times the coefficient. -/
theorem pay6_apply (x0 : Vec Ideal S1024x1024 .f32) (x1 : Vec Ideal S1024x256 .f32) (x2 : Vec Ideal S256x1024 .f32) (s : Vec Ideal S1024x1 .f32) (r : Fin 1024) (z : Fin 1) :
    k0_pay6 x0 x1 x2 s (ix2 r z) = s (ix2 r z) + ∑ q : Fin 256,
      (((∑ d : Fin 1024, x0 (ix2 r d) * x0 (ix2 r d)) - Ideal.ofBits .f32 0x40000000#32 * (∑ d : Fin 1024, x0 (ix2 r d) * x2 (ix2 q d)))
        + (∑ d : Fin 1024, x2 (ix2 q d) * x2 (ix2 q d))) * x1 (ix2 r q) := by
  unfold k0_pay6 k0_pay5
  refine (congrFun (shapeCast_self _ _) (ix2 r z)).trans ?_
  refine (addf_apply _ _ _).trans ?_
  refine congrArg (s (ix2 r z) + ·) ?_
  refine (shapeCast_a_a1_apply _ _ r z).trans ?_
  refine (laneSum_apply _ _ _ _ _ r).trans ?_
  refine Finset.sum_congr rfl fun q _ => ?_
  refine (mulf_apply _ _ _).trans ?_
  refine congrArg (· * x1 (ix2 r q)) ?_
  refine (addf_apply _ _ _).trans ?_
  refine congrArg₂ (· + ·) ?_ ?_
  · refine (subf_apply _ _ _).trans ?_
    refine congrArg₂ (· - ·) ?_ ?_
    · refine (broadcastTo_a1_ab_apply _ _ r q).trans ?_
      refine (shapeCast_a_a1_apply _ _ r 0).trans ?_
      exact laneSum_apply _ _ _ _ _ r
    · refine (mulf_apply _ _ _).trans ?_
      exact congrArg (Ideal.ofBits .f32 0x40000000#32 * ·) (matmul_yA_apply _ _ r q)
  · refine (broadcastTo_1b_ab_apply _ _ r q).trans ?_
    refine (shapeCast_a_1a_apply _ _ 0 q).trans ?_
    exact laneSum_apply _ _ _ _ _ q

/-- At the last tile the stored reconstruction term of row `r` is the squared distance of the row from its reconstruction. -/
theorem pay2_apply (x0 acc : Vec Ideal S1024x1024 .f32) (r : Fin 1024) (z : Fin 1) :
    k0_pay2 x0 acc (ix2 r z) = ∑ d : Fin 1024, (x0 (ix2 r d) - acc (ix2 r d)) * (x0 (ix2 r d) - acc (ix2 r d)) := by
  unfold k0_pay2
  refine (shapeCast_a_a1_apply _ _ r z).trans ?_
  exact laneSum_apply _ _ _ _ _ r

end Cert.KernelIdeal.Pay

end
-- ==== Proof.Invariant.lean ====
/-
  The accumulators, point by point.

  Within a row block the eight dictionary tiles are visited in order. After tile `k` the `X·A` accumulator holds, at
  (r, d), the sum over tiles `0 … k` of the tile's products `Σ_q X_{b, 256k'+q} · A_{256k'+q, d}` (b the row
  `1024·(t/8) + r`), and the locality accumulator the same partial sum of `‖Y_b − A_j‖² · X_{b j}`: the first tile
  adds to zero, every later tile adds to what the tile before left (induction on the point). At the last tile the sums
  are over all 2048 atoms, and the two output blocks are the reconstruction and locality terms of the block's rows.
-/
import proofs.«165693_j1580547970481_1_alg».proof.Proof.Pieces
import proofs.«165693_j1580547970481_1_alg».proof.Proof.Blocks
import proofs.«165693_j1580547970481_1_alg».proof.Proof.Payload

set_option maxRecDepth 16384

noncomputable section

namespace Cert.KernelIdeal.Inv

open Cert.KernelIdeal Cert.KernelIdeal.Gen Cert.KernelIdeal.Pieces Cert.KernelIdeal.Blocks Cert.KernelIdeal.Pay
open Idealize.ShloMosaic Idealize.ShloMosaic.TcCoe Idealize.SL.Sem Idealize.ShloMosaic.ValueIdx DictLoss Finset

variable (m : (ℓ : Loc nD τ sig) → Buf (Elt Ideal) ℓ)

/-- What the two accumulators hold after the body at position `n`. -/
abbrev accAt (c : Dev nD) (n : ℕ) (hn : n < cfg0.N) : Vec Ideal S1024x1024 .f32 := (outsAt0 m c n hn).2.2.1
abbrev locAt (c : Dev nD) (n : ℕ) (hn : n < cfg0.N) : Vec Ideal S1024x1 .f32 := (outsAt0 m c n hn).2.2.2

/-- At a first tile both accumulators are the update of zero. -/
theorem scratch_first (c : Dev nD) (t : Fin cfg0.N) (h0 : t.val % 8 = 0) :
    accAt m c t.val t.isLt = k0_pay1 (k0_pay7 (xblk m c t) (ablk m c t) (k0_pay3 (F := Ideal)))
    ∧ locAt m c t.val t.isLt = k0_pay6 (yblk m c t) (xblk m c t) (ablk m c t) (k0_pay4 (F := Ideal)) := by
  have h1 : ¬t.val % 8 = 7 := by omega
  unfold accAt locAt
  rw [outsAt0_A m c t h0 h1]
  dsimp only
  exact ⟨acc_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (yblk m c t) (xblk m c t) (ablk m c t) ((hcond0_0 t).mpr h0) (fun h => h1 ((hcond0_1 t).mp h)),
    loc_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (yblk m c t) (xblk m c t) (ablk m c t) ((hcond0_0 t).mpr h0) (fun h => h1 ((hcond0_1 t).mp h))⟩

/-- At a later tile both are the update of what the point before left. -/
theorem scratch_next (c : Dev nD) (t : Fin cfg0.N) (h0 : ¬t.val % 8 = 0) :
    accAt m c t.val t.isLt = k0_pay1 (k0_pay7 (xblk m c t) (ablk m c t)
        (accAt m c (t.val - 1) (Nat.lt_of_le_of_lt (Nat.sub_le _ _) t.isLt)))
    ∧ locAt m c t.val t.isLt = k0_pay6 (yblk m c t) (xblk m c t) (ablk m c t)
        (locAt m c (t.val - 1) (Nat.lt_of_le_of_lt (Nat.sub_le _ _) t.isLt)) := by
  unfold accAt locAt
  by_cases h1 : t.val % 8 = 7
  · rw [outsAt0_C m c t h0 h1]
    dsimp only
    exact ⟨acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (yblk m c t) (xblk m c t) (ablk m c t) _ _ (fun h => h0 ((hcond0_0 t).mp h)) ((hcond0_1 t).mpr h1),
      loc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (yblk m c t) (xblk m c t) (ablk m c t) _ _ (fun h => h0 ((hcond0_0 t).mp h)) ((hcond0_1 t).mpr h1)⟩
  · rw [outsAt0_B m c t h0 h1]
    dsimp only
    exact ⟨acc_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (yblk m c t) (xblk m c t) (ablk m c t) _ _ (fun h => h0 ((hcond0_0 t).mp h)) (fun h => h1 ((hcond0_1 t).mp h)),
      loc_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (yblk m c t) (xblk m c t) (ablk m c t) _ _ (fun h => h0 ((hcond0_0 t).mp h)) (fun h => h1 ((hcond0_1 t).mp h))⟩

/-- At a last tile the first output block is the squared residual's row sums against the accumulator as the point
    leaves it, the second the locality accumulator as the point leaves it. -/
theorem outs_last (c : Dev nD) (t : Fin cfg0.N) (h1 : t.val % 8 = 7) :
    (outsAt0 m c t.val t.isLt).1 = k0_pay2 (yblk m c t) (accAt m c t.val t.isLt)
    ∧ (outsAt0 m c t.val t.isLt).2.1 = locAt m c t.val t.isLt := by
  have h0 : ¬t.val % 8 = 0 := by omega
  unfold accAt locAt
  rw [outsAt0_C m c t h0 h1]
  dsimp only
  exact ⟨(outA_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (yblk m c t) (xblk m c t) (ablk m c t) _ _ (fun h => h0 ((hcond0_0 t).mp h)) ((hcond0_1 t).mpr h1)).trans
      (congrArg (k0_pay2 (yblk m c t)) (acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (yblk m c t) (xblk m c t) (ablk m c t) _ _ (fun h => h0 ((hcond0_0 t).mp h)) ((hcond0_1 t).mpr h1)).symm),
    (outB_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (yblk m c t) (xblk m c t) (ablk m c t) _ _ (fun h => h0 ((hcond0_0 t).mp h)) ((hcond0_1 t).mpr h1)).trans
      (loc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (yblk m c t) (xblk m c t) (ablk m c t) _ _ (fun h => h0 ((hcond0_0 t).mp h)) ((hcond0_1 t).mpr h1)).symm⟩

/-! ## One tile's contribution, over the whole arrays -/

/-- The tile's products at (r, d). -/
theorem tile_xa (c : Dev nD) (t : Fin cfg0.N) (r d : Fin 1024) :
    ∑ q : Fin 256, xblk m c t (ix2 r q) * ablk m c t (ix2 q d)
      = ∑ q ∈ range 256, at2 (Xarr m c) (t.val / 8 * 1024 + r.val) (t.val % 8 * 256 + q) * at2 (Aarr m c) (t.val % 8 * 256 + q) d.val := by
  rw [← Fin.sum_univ_eq_sum_range (fun q => at2 (Xarr m c) (t.val / 8 * 1024 + r.val) (t.val % 8 * 256 + q) * at2 (Aarr m c) (t.val % 8 * 256 + q) d.val) 256]
  exact Finset.sum_congr rfl fun q _ => by rw [xblk_apply, ablk_apply]

/-- A row sum over the block's 1024 columns as a sum over column numbers. -/
theorem sum_cols (f : ℕ → EReal) (g : Fin 1024 → EReal) (h : ∀ d : Fin 1024, g d = f d.val) :
    ∑ d : Fin 1024, g d = ∑ d ∈ range 1024, f d := by
  rw [← Fin.sum_univ_eq_sum_range f 1024]; exact Finset.sum_congr rfl fun d _ => h d

/-- The tile's weighted coefficients of row r. -/
theorem tile_wx (c : Dev nD) (t : Fin cfg0.N) (r : Fin 1024) :
    ∑ q : Fin 256,
        (((∑ d : Fin 1024, yblk m c t (ix2 r d) * yblk m c t (ix2 r d))
            - Ideal.ofBits .f32 0x40000000#32 * (∑ d : Fin 1024, yblk m c t (ix2 r d) * ablk m c t (ix2 q d)))
          + (∑ d : Fin 1024, ablk m c t (ix2 q d) * ablk m c t (ix2 q d))) * xblk m c t (ix2 r q)
      = ∑ q ∈ range 256, wx (Aarr m c) (Yarr m c) (Xarr m c) (t.val / 8 * 1024 + r.val) (t.val % 8 * 256 + q) := by
  rw [← Fin.sum_univ_eq_sum_range (fun q => wx (Aarr m c) (Yarr m c) (Xarr m c) (t.val / 8 * 1024 + r.val) (t.val % 8 * 256 + q)) 256]
  refine Finset.sum_congr rfl fun q _ => ?_
  unfold wx wgt ysq cross asq
  rw [sum_cols (fun d => at2 (Yarr m c) (t.val / 8 * 1024 + r.val) d * at2 (Yarr m c) (t.val / 8 * 1024 + r.val) d) _
      (fun d => by rw [yblk_apply]),
    sum_cols (fun d => at2 (Yarr m c) (t.val / 8 * 1024 + r.val) d * at2 (Aarr m c) (t.val % 8 * 256 + q.val) d) _
      (fun d => by rw [yblk_apply, ablk_apply]),
    sum_cols (fun d => at2 (Aarr m c) (t.val % 8 * 256 + q.val) d * at2 (Aarr m c) (t.val % 8 * 256 + q.val) d) _
      (fun d => by rw [ablk_apply]),
    xblk_apply]

/-! ## The invariant -/

/-- After tile `n % 8` of row block `n / 8` the `X·A` accumulator is the sum over the tiles so far. -/
theorem acc_inv (c : Dev nD) : ∀ (n : ℕ) (hn : n < cfg0.N) (r d : Fin 1024),
    accAt m c n hn (ix2 r d) = xaTiles (Aarr m c) (Xarr m c) (n / 8 * 1024 + r.val) d.val (n % 8 + 1)
  | 0, hn, r, d => by
    rw [(scratch_first m c ⟨0, hn⟩ rfl).1, pay1_eq, pay7_apply, pay3_apply, zero_add, tile_xa]
    show _ = xaTiles (Aarr m c) (Xarr m c) (0 / 8 * 1024 + r.val) d.val (0 % 8 + 1)
    unfold xaTiles
    rw [show 0 % 8 + 1 = 1 from rfl, sum_range_one]
    rfl
  | n + 1, hn, r, d => by
    by_cases h0 : (n + 1) % 8 = 0
    · rw [(scratch_first m c ⟨n + 1, hn⟩ h0).1, pay1_eq, pay7_apply, pay3_apply, zero_add, tile_xa]
      show ∑ q ∈ range 256, at2 (Xarr m c) ((n + 1) / 8 * 1024 + r.val) ((n + 1) % 8 * 256 + q) * at2 (Aarr m c) ((n + 1) % 8 * 256 + q) d.val = _
      unfold xaTiles
      rw [h0, show 0 + 1 = 1 from rfl, sum_range_one]
    · have hprev := acc_inv c n (Nat.lt_of_succ_lt hn) r d
      have hdiv : (n + 1) / 8 = n / 8 := by omega
      have hmod : (n + 1) % 8 = n % 8 + 1 := by omega
      rw [(scratch_next m c ⟨n + 1, hn⟩ h0).1, pay1_eq, pay7_apply, tile_xa]
      show accAt m c n _ (ix2 r d) + ∑ q ∈ range 256, at2 (Xarr m c) ((n + 1) / 8 * 1024 + r.val) ((n + 1) % 8 * 256 + q) * at2 (Aarr m c) ((n + 1) % 8 * 256 + q) d.val = _
      rw [hprev, hdiv, hmod]
      unfold xaTiles
      rw [sum_range_succ _ (n % 8 + 1)]

/-- And the locality accumulator likewise. -/
theorem loc_inv (c : Dev nD) : ∀ (n : ℕ) (hn : n < cfg0.N) (r : Fin 1024) (z : Fin 1),
    locAt m c n hn (ix2 r z) = rowBTiles (Aarr m c) (Yarr m c) (Xarr m c) (n / 8 * 1024 + r.val) (n % 8 + 1)
  | 0, hn, r, z => by
    rw [(scratch_first m c ⟨0, hn⟩ rfl).2, pay6_apply, pay4_apply, zero_add, tile_wx]
    show _ = rowBTiles (Aarr m c) (Yarr m c) (Xarr m c) (0 / 8 * 1024 + r.val) (0 % 8 + 1)
    unfold rowBTiles
    rw [show 0 % 8 + 1 = 1 from rfl, sum_range_one]
    rfl
  | n + 1, hn, r, z => by
    by_cases h0 : (n + 1) % 8 = 0
    · rw [(scratch_first m c ⟨n + 1, hn⟩ h0).2, pay6_apply, pay4_apply, zero_add, tile_wx]
      show ∑ q ∈ range 256, wx (Aarr m c) (Yarr m c) (Xarr m c) ((n + 1) / 8 * 1024 + r.val) ((n + 1) % 8 * 256 + q) = _
      unfold rowBTiles
      rw [h0, show 0 + 1 = 1 from rfl, sum_range_one]
    · have hprev := loc_inv c n (Nat.lt_of_succ_lt hn) r z
      have hdiv : (n + 1) / 8 = n / 8 := by omega
      have hmod : (n + 1) % 8 = n % 8 + 1 := by omega
      rw [(scratch_next m c ⟨n + 1, hn⟩ h0).2, pay6_apply, tile_wx]
      show locAt m c n _ (ix2 r z) + ∑ q ∈ range 256, wx (Aarr m c) (Yarr m c) (Xarr m c) ((n + 1) / 8 * 1024 + r.val) ((n + 1) % 8 * 256 + q) = _
      rw [hprev, hdiv, hmod]
      unfold rowBTiles
      rw [sum_range_succ _ (n % 8 + 1)]

/-! ## The two output blocks at a last tile -/

/-- The first output block at a last tile: the reconstruction term of each of the block's rows. -/
theorem outA_last (c : Dev nD) (t : Fin cfg0.N) (h1 : t.val % 8 = 7) (r : Fin 1024) (z : Fin 1) :
    (outsAt0 m c t.val t.isLt).1 (ix2 r z) = rowA (Aarr m c) (Yarr m c) (Xarr m c) (t.val / 8 * 1024 + r.val) := by
  rw [(outs_last m c t h1).1, pay2_apply]
  unfold rowA
  refine sum_cols _ _ fun d => ?_
  rw [yblk_apply, acc_inv m c t.val t.isLt r d, h1, show 7 + 1 = 8 from rfl, xaTiles_all]

/-- The second output block at a last tile: the locality term of each of the block's rows. -/
theorem outB_last (c : Dev nD) (t : Fin cfg0.N) (h1 : t.val % 8 = 7) (r : Fin 1024) (z : Fin 1) :
    (outsAt0 m c t.val t.isLt).2.1 (ix2 r z) = rowB (Aarr m c) (Yarr m c) (Xarr m c) (t.val / 8 * 1024 + r.val) := by
  rw [(outs_last m c t h1).2, loc_inv m c t.val t.isLt r z, h1, show 7 + 1 = 8 from rfl, rowBTiles_all]

end Cert.KernelIdeal.Inv

end
-- ==== Proof.Arrays.lean ====
/-
  The two result columns of the pallas_call and the scalar computed from them.

  Each output column has one block per row block, written back at the row block's last dictionary tile; these eight
  blocks tile the column, so after the run entry `b` of the first column is the reconstruction term of row `b` and
  entry `b` of the second its locality term. The lines after the call sum each column from the float zero, divide by
  8192, scale by ½ and by 1/10 and add: the loss.
-/
import proofs.«165693_j1580547970481_1_alg».proof.Proof.Invariant
import Idealize.ShloMosaic.Lib.StableHlo.Run

set_option maxRecDepth 16384

noncomputable section

namespace Cert.KernelIdeal.Arrays

open Cert.KernelIdeal Cert.KernelIdeal.Gen Cert.KernelIdeal.Blocks Cert.KernelIdeal.Inv
open Idealize.ShloMosaic Idealize.ShloMosaic.TcCoe Idealize.SL.Sem Idealize.ShloMosaic.ValueIdx DictLoss Finset
open Idealize.ShloMosaic.Pipeline (Dat)

variable (m : (ℓ : Loc nD τ sig) → Buf (Elt Ideal) ℓ) (ρ : Dev nD → PrngReg)

/-- The reconstruction terms as a column, and the locality terms as a column. -/
abbrev colA (c : Dev nD) : Buf (Elt Ideal) ((c : Thread nD τ).loc main_v0_0) :=
  fun j => rowA (Aarr m c) (Yarr m c) (Xarr m c) (j 0).val
abbrev colB (c : Dev nD) : Buf (Elt Ideal) ((c : Thread nD τ).loc main_v0_1) :=
  fun j => rowB (Aarr m c) (Yarr m c) (Xarr m c) (j 0).val

/-- What a last tile writes back into the first column is its block of the reconstruction terms. -/
theorem flushedA (c : Dev nD) (t : Fin cfg0.N) (hf : (cfg0.win 3).flush t = true) :
    (dats m 0 c).flushed 3 t = ((cfg0.win 3).blk t).view.read (Elt Ideal) (colA m c) := by
  have h7 : t.val % 8 = 7 := (flush0_3 t).mp hf
  show (cfg0.win 3).cut (grid0.coords t) ((dats m 0 c).after 3 t) = _
  rw [after0_3]
  funext j
  rw [View.read_apply]
  obtain ⟨r, z, rfl⟩ : ∃ (r : Fin 1024) (z : Fin 1), j = ix2 r z := ⟨j 0, j 1, eq_ix2 j⟩
  show (outsAt0 m c t.val t.isLt).1 (ix2 r z) = rowA (Aarr m c) (Yarr m c) (Xarr m c) (win0_3.index t 0 * 1024 + 1 * r.val)
  rw [outA_last m c t h7 r z, (idx_oa t).1, Nat.one_mul]

/-- And into the second column its block of the locality terms. -/
theorem flushedB (c : Dev nD) (t : Fin cfg0.N) (hf : (cfg0.win 4).flush t = true) :
    (dats m 0 c).flushed 4 t = ((cfg0.win 4).blk t).view.read (Elt Ideal) (colB m c) := by
  have h7 : t.val % 8 = 7 := (flush0_4 t).mp hf
  show (cfg0.win 4).cut (grid0.coords t) ((dats m 0 c).after 4 t) = _
  rw [after0_4]
  funext j
  rw [View.read_apply]
  obtain ⟨r, z, rfl⟩ : ∃ (r : Fin 1024) (z : Fin 1), j = ix2 r z := ⟨j 0, j 1, eq_ix2 j⟩
  show (outsAt0 m c t.val t.isLt).2.1 (ix2 r z) = rowB (Aarr m c) (Yarr m c) (Xarr m c) (win0_4.index t 0 * 1024 + 1 * r.val)
  rw [outB_last m c t h7 r z, (idx_ob t).1, Nat.one_mul]

/-- An index of a column is in point `t`'s block iff each coordinate is in the block's range on its axis. -/
theorem mem_blkA (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_0).slice (win0_3.rect t)).set ↔ _
  rw [View.set_slice_whole, Rect.mem_set_unit]
  exact Iff.rfl
theorem mem_blkB (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_1).slice (win0_4.rect t)).set ↔ _
  rw [View.set_slice_whole, Rect.mem_set_unit]
  exact Iff.rfl

/-- The last tile of the row block that holds row `b`. -/
def lastTile (b : Fin 8192) : Fin cfg0.N :=
  ⟨b.val / 1024 * 8 + 7, lt_of_lt_of_eq (by have := b.isLt; omega : b.val / 1024 * 8 + 7 < 64) (show cfg0.N = 64 from N_0).symm⟩

/-- Every entry of the first column is in a block some last tile writes back. -/
theorem coverA (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  refine ⟨lastTile (i 0), (flush0_3 _).mpr (by show ((i 0).val / 1024 * 8 + 7) % 8 = 7; omega), ?_⟩
  rw [mem_blkA]
  have e0 := (idx_oa (lastTile (i 0))).1
  have e1 := (idx_oa (lastTile (i 0))).2
  have hv : (lastTile (i 0)).val = (i 0).val / 1024 * 8 + 7 := rfl
  intro a
  match a with
  | ⟨0, _⟩ => show win0_3.index (lastTile (i 0)) 0 * 1024 ≤ (i 0).val ∧ (i 0).val < win0_3.index (lastTile (i 0)) 0 * 1024 + 1024; rw [e0, hv]; omega
  | ⟨1, _⟩ => show win0_3.index (lastTile (i 0)) 1 * 1 ≤ (i 1).val ∧ (i 1).val < win0_3.index (lastTile (i 0)) 1 * 1 + 1; rw [e1]; omega

theorem coverB (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  refine ⟨lastTile (i 0), (flush0_4 _).mpr (by show ((i 0).val / 1024 * 8 + 7) % 8 = 7; omega), ?_⟩
  rw [mem_blkB]
  have e0 := (idx_ob (lastTile (i 0))).1
  have e1 := (idx_ob (lastTile (i 0))).2
  have hv : (lastTile (i 0)).val = (i 0).val / 1024 * 8 + 7 := rfl
  intro a
  match a with
  | ⟨0, _⟩ => show win0_4.index (lastTile (i 0)) 0 * 1024 ≤ (i 0).val ∧ (i 0).val < win0_4.index (lastTile (i 0)) 0 * 1024 + 1024; rw [e0, hv]; omega
  | ⟨1, _⟩ => show win0_4.index (lastTile (i 0)) 1 * 1 ≤ (i 1).val ∧ (i 1).val < win0_4.index (lastTile (i 0)) 1 * 1 + 1; rw [e1]; omega

/-- So the two columns end holding the two row terms. -/
theorem finalA (c : Dev nD) : (dats m 0 c).arrAt 3 cfg0.N = colA m c :=
  (dats m 0 c).arrAt_eq_of_cover 3 (colA m c) (flushedA m c) coverA
theorem finalB (c : Dev nD) : (dats m 0 c).arrAt 4 cfg0.N = colB m c :=
  (dats m 0 c).arrAt_eq_of_cover 4 (colB m c) (flushedB m c) coverB

end Cert.KernelIdeal.Arrays

end
-- ==== Proof.Result.lean ====
/-
  The idealized kernel program's run, read: its result is the loss of its argument arrays.
-/
import proofs.«165693_j1580547970481_1_alg».proof.Proof.Arrays
import Idealize.ShloMosaic.Lib.StableHlo.Run
import Idealize.ShloMosaic.Lib.Tactic
import Idealize.ShloMosaic.PureOps.Ideal.Laws

set_option maxRecDepth 16384

noncomputable section

namespace Cert.KernelIdeal.Result

open Cert.KernelIdeal Cert.KernelIdeal.Gen Cert.KernelIdeal.Blocks Cert.KernelIdeal.Inv Cert.KernelIdeal.Arrays
open Idealize.ShloMosaic Idealize.ShloMosaic.TcCoe Idealize.SL.Sem Idealize.ShloMosaic.ValueIdx DictLoss Finset
open Idealize.ShloMosaic.StableHlo

variable (m : (ℓ : Loc nD τ sig) → Buf (Elt Ideal) ℓ) (ρ : Dev nD → PrngReg)

/-- The host's sum of a column over both its axes, from the float zero: the zero plus the sum of the column's
    entries over the row numbers. -/
theorem column_total (col : S8192x1.Idx → EReal) (f : ℕ → EReal) (hcol : ∀ j, col j = f (j 0).val) (i : S_.Idx) :
    Host.reduceAdd (F := Ideal) col (constant S_ .f32 0x00000000#32) reducesTo_S8192x1_S_d0_1 h_S_ i
      = Ideal.ofBits .f32 0x00000000#32 + ∑ b ∈ range 8192, f b := by
  simp only [Host.reduceAdd, Ideal.hostReduceAdd_def]
  rw [Ideal.hostReduceAdd_total reducesTo_S8192x1_S_d0_1 (fun b => b.elim0)]
  refine congrArg₂ (· + ·) rfl ?_
  rw [sum_idx2, ← Fin.sum_univ_eq_sum_range f 8192]
  refine Finset.sum_congr rfl fun a _ => ?_
  rw [Fin.sum_univ_one]
  exact hcol _

/-- What the lines after the call compute from the two columns is the loss. -/
theorem tail_eq (c : Dev nD) :
    Pipeline.afterTail₀ cfgs (dats m) 0 (V0 m) [hostOps1] c main_v7 = fun _ => loss (Aarr m c) (Yarr m c) (Xarr m c) := by
  unfold Pipeline.afterTail₀
  show StableHlo.after hostOps1 _ (Proc.devRef .tc main_v7) = _
  after_results
  have eA : Pipeline.withArrays (cfgs 0).spec c (V0 m c) (fun w => (dats m 0 c).arrAt w (cfgs 0).N) (Proc.devRef .tc main_v0_0) = colA m c :=
    (Pipeline.withArrays_arr spec0 launch0.win.arr_inj c _ _ 3).trans (finalA m c)
  have eB : Pipeline.withArrays (cfgs 0).spec c (V0 m c) (fun w => (dats m 0 c).arrAt w (cfgs 0).N) (Proc.devRef .tc main_v0_1) = colB m c :=
    (Pipeline.withArrays_arr spec0 launch0.win.arr_inj c _ _ 4).trans (finalB m c)
  rw [eA, eB]
  funext i
  show Ideal.ofBits .f32 0x3F000000#32
        * Ideal.div (Host.reduceAdd (F := Ideal) (colA m c) (constant S_ .f32 0x00000000#32) reducesTo_S8192x1_S_d0_1 h_S_ i) (Ideal.ofBits .f32 0x46000000#32)
      + Ideal.div (Host.reduceAdd (F := Ideal) (colB m c) (constant S_ .f32 0x00000000#32) reducesTo_S8192x1_S_d0_1 h_S_ i) (Ideal.ofBits .f32 0x46000000#32)
        * Ideal.ofBits .f32 0x3DCCCCCD#32 = _
  rw [column_total (colA m c) (fun b => rowA (Aarr m c) (Yarr m c) (Xarr m c) b) (fun _ => rfl),
    column_total (colB m c) (fun b => rowB (Aarr m c) (Yarr m c) (Xarr m c) b) (fun _ => rfl)]
  rfl

/-- Every weakly fair execution of the idealized kernel program terminates with its result at the loss of the
    argument arrays, which end unchanged. -/
theorem run : θ_run defs (onTc (τ := τ) (main (F := Ideal))) ⟨m, fun _ => 0, ρ⟩ fun r => ∀ c : Dev nD,
      r.2.mem ((c.tc : Thread nD τ).loc main_v7)
        = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v7 (Pipeline.mem_restRefs_of main_v7 rfl (by decide))).trans (tail_eq m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c)))⟩)
    (run_main m ρ)

end Cert.KernelIdeal.Result

end
-- ==== Proof.RefValue.lean ====
/-
  The reference program's result, read at the ideal values, is the specification's loss.

  Each stage of the reference is read at an index and identified with one quantity of the specification at the
  row and column numbers of that index: the squared norms, the inner products, the expanded squared distance, the
  product of the codes with the dictionary, the two row terms, and last the two means and their combination.
  A sum over the coordinates of an axis becomes a sum over a range of numbers, and an array read becomes an
  entry by numbers.
-/
import proofs.«165693_j1580547970481_1_alg».proof.Proof.Gen.ReferenceIdeal.Read
import proofs.«165693_j1580547970481_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx DictLoss

/-- An array read at an index whose two coordinates are the numbers `a` and `b` is the entry at `a`, `b`. -/
theorem read2 {n0 n1 : ℕ} (Z : (⟨2, ![n0, n1]⟩ : Shape).Idx → EReal) (j : (⟨2, ![n0, n1]⟩ : Shape).Idx) (a b : ℕ)
    (ha : (j 0).val = a) (hb : (j 1).val = b) : Z j = at2 Z a b := by
  subst ha hb; exact at2_idx Z j

/-- A sum over the coordinates of an axis of size `n` is the sum over the first `n` numbers. -/
theorem sum_fin (f : ℕ → EReal) (n : ℕ) : ∑ k : Fin n, f k.val = ∑ k ∈ Finset.range n, f k :=
  Fin.sum_univ_eq_sum_range f n

/-- The indices of a vector of length `n` are its `n` coordinates. -/
def idx1Equiv (n : ℕ) : (⟨1, ![n]⟩ : Shape).Idx ≃ Fin n where
  toFun j := j 0
  invFun a := ix1 a
  left_inv j := (eq_ix1 j).symm
  right_inv _ := rfl

/-- A sum over the indices of a vector of length `n` is the sum over the first `n` numbers. -/
theorem sum_idx1 (f : ℕ → EReal) (n : ℕ) :
    ∑ j : (⟨1, ![n]⟩ : Shape).Idx, f (j 0).val = ∑ b ∈ Finset.range n, f b := by
  rw [← sum_fin f n]
  exact Fintype.sum_equiv (idx1Equiv n) _ _ (fun _ => rfl)

variable (x0 : (⟨S2048x1024, .f32⟩ : BufTy).Contents (Elt Ideal)) (x1 : (⟨S8192x1024, .f32⟩ : BufTy).Contents (Elt Ideal))
  (x2 : (⟨S8192x2048, .f32⟩ : BufTy).Contents (Elt Ideal))

/-- ‖Y_b‖²: the row sum of the squares of the targets. -/
theorem v1_eq (i : S8192.Idx) : val_main_v1 (F := Ideal) x1 i = ysq x1 (i 0).val := by
  rw [val_main_v1_apply, val_main_cst_apply, Ideal.ofBits_def, Ideal.ofBits_zero_f32, zero_add]
  unfold ysq
  rw [← sum_fin (fun d => at2 x1 (i 0).val d * at2 x1 (i 0).val d) 1024]
  refine Finset.sum_congr rfl fun k _ => ?_
  rw [val_main_v0_apply, Ideal.mulf_def, read2 x1 (idx_main_v1 i k) (i 0).val k.val rfl rfl]

/-- ‖A_k‖²: the row sum of the squares of the dictionary. -/
theorem v4_eq (i : S2048.Idx) : val_main_v4 (F := Ideal) x0 i = asq x0 (i 0).val := by
  rw [val_main_v4_apply, val_main_cst_0_apply, Ideal.ofBits_def, Ideal.ofBits_zero_f32, zero_add]
  unfold asq
  rw [← sum_fin (fun d => at2 x0 (i 0).val d * at2 x0 (i 0).val d) 1024]
  refine Finset.sum_congr rfl fun k _ => ?_
  rw [val_main_v3_apply, Ideal.mulf_def, read2 x0 (idx_main_v4 i k) (i 0).val k.val rfl rfl]

/-- ⟨Y_b, A_k⟩: the targets against the transposed dictionary. -/
theorem v7_eq (i : S8192x2048.Idx) : val_main_v7 (F := Ideal) x0 x1 i = cross x0 x1 (i 0).val (i 1).val := by
  rw [val_main_v7_apply]
  unfold cross
  rw [← sum_fin (fun d => at2 x1 (i 0).val d * at2 x0 (i 1).val d) 1024]
  refine Finset.sum_congr rfl fun k _ => ?_
  rw [val_main_v6_apply, read2 x1 (lidx_main_v7 i k) (i 0).val k.val rfl rfl,
    read2 x0 (idx_main_v6 (ridx_main_v7 i k)) (i 1).val k.val rfl rfl]

/-- The expanded squared distance ‖Y_b‖² − 2⟨Y_b, A_k⟩ + ‖A_k‖². -/
theorem v13_eq (i : S8192x2048.Idx) : val_main_v13 (F := Ideal) x0 x1 i = wgt x0 x1 (i 0).val (i 1).val := by
  rw [val_main_v13_apply, val_main_v11_apply, val_main_v9_apply, val_main_v8_apply, val_main_cst_1_apply,
    val_main_v10_apply, val_main_v2_apply, v1_eq, val_main_v12_apply, val_main_v5_apply, v4_eq, v7_eq,
    Ideal.addf_def, Ideal.subf_def, Ideal.mulf_def, Ideal.ofBits_def]
  rfl

/-- (X·A)_{b d}: the codes against the dictionary. -/
theorem v14_eq (i : S8192x1024.Idx) : val_main_v14 (F := Ideal) x0 x2 i = xa x0 x2 (i 0).val (i 1).val := by
  rw [val_main_v14_apply]
  unfold xa
  rw [← sum_fin (fun k => at2 x2 (i 0).val k * at2 x0 k (i 1).val) 2048]
  refine Finset.sum_congr rfl fun k _ => ?_
  rw [read2 x2 (lidx_main_v14 i k) (i 0).val k.val rfl rfl, read2 x0 (ridx_main_v14 i k) k.val (i 1).val rfl rfl]

/-- The reconstruction term of a row: ‖Y_b − (X·A)_b‖². -/
theorem v17_eq (i : S8192.Idx) : val_main_v17 (F := Ideal) x0 x1 x2 i = rowA x0 x1 x2 (i 0).val := by
  rw [val_main_v17_apply, val_main_cst_2_apply, Ideal.ofBits_def, Ideal.ofBits_zero_f32, zero_add]
  unfold rowA
  rw [← sum_fin (fun d => (at2 x1 (i 0).val d - xa x0 x2 (i 0).val d) * (at2 x1 (i 0).val d - xa x0 x2 (i 0).val d)) 1024]
  refine Finset.sum_congr rfl fun k _ => ?_
  rw [val_main_v16_apply, val_main_v15_apply, v14_eq, Ideal.mulf_def, Ideal.subf_def,
    read2 x1 (idx_main_v17 i k) (i 0).val k.val rfl rfl]

/-- The locality term of a row: the weighted coefficients summed over the atoms. -/
theorem v22_eq (i : S8192.Idx) : val_main_v22 (F := Ideal) x0 x1 x2 i = rowB x0 x1 x2 (i 0).val := by
  rw [val_main_v22_apply, val_main_cst_6_apply, Ideal.ofBits_def, Ideal.ofBits_zero_f32, zero_add]
  unfold rowB
  rw [← sum_fin (fun k => wx x0 x1 x2 (i 0).val k) 2048]
  refine Finset.sum_congr rfl fun k _ => ?_
  rw [val_main_v21_apply, v13_eq, Ideal.mulf_def, read2 x2 (idx_main_v22 i k) (i 0).val k.val rfl rfl]
  rfl

/-- The sum of the reconstruction terms over the rows, from the float zero. -/
theorem v18_eq (i : S_.Idx) : val_main_v18 (F := Ideal) x0 x1 x2 i
    = Ideal.ofBits .f32 0x00000000#32 + ∑ b ∈ Finset.range 8192, rowA x0 x1 x2 b := by
  rw [val_main_v18_apply, val_main_cst_3_apply, Ideal.ofBits_def, ← sum_idx1 (fun b => rowA x0 x1 x2 b) 8192]
  exact congrArg (_ + ·) (Finset.sum_congr rfl fun j _ => v17_eq x0 x1 x2 j)

/-- The sum of the locality terms over the rows, from the float zero. -/
theorem v23_eq (i : S_.Idx) : val_main_v23 (F := Ideal) x0 x1 x2 i
    = Ideal.ofBits .f32 0x00000000#32 + ∑ b ∈ Finset.range 8192, rowB x0 x1 x2 b := by
  rw [val_main_v23_apply, val_main_cst_7_apply, Ideal.ofBits_def, ← sum_idx1 (fun b => rowB x0 x1 x2 b) 8192]
  exact congrArg (_ + ·) (Finset.sum_congr rfl fun j _ => v22_eq x0 x1 x2 j)

/-- The reference's result is the loss: half the mean reconstruction term plus a tenth of the mean locality term. -/
theorem ref_eq (x0 : (⟨S2048x1024, .f32⟩ : BufTy).Contents (Elt Ideal)) (x1 : (⟨S8192x1024, .f32⟩ : BufTy).Contents (Elt Ideal)) (x2 : (⟨S8192x2048, .f32⟩ : BufTy).Contents (Elt Ideal)) (i : S_.Idx) :
    val_main_v26 (F := Ideal) x0 x1 x2 i = DictLoss.loss x0 x1 x2 := by
  rw [val_main_v26_apply, val_main_v20_apply, val_main_v25_apply, val_main_v19_apply, val_main_v24_apply,
    val_main_cst_5_apply, val_main_cst_4_apply, val_main_cst_8_apply, val_main_cst_9_apply, v18_eq, v23_eq,
    Ideal.addf_def, Ideal.mulf_def, Ideal.mulf_def, Ideal.hostDivf_def, Ideal.hostDivf_def]
  simp only [Ideal.ofBits_def]
  unfold DictLoss.loss
  rfl

end Cert.ReferenceIdeal.RefValue

end
-- ==== Proof.lean ====
/-
  The certificate: a fused dictionary-learning loss kernel against its plain reference, over the extended reals.

  The kernel walks an 8 × 8 grid — 8 blocks of 1024 rows, and for each of them 8 tiles of 256 dictionary atoms — keeping
  two accumulators per row block: the product `X·A` of the codes with the dictionary, and the locality term
  `Σ_k ‖Y_b − A_k‖² · X_{b k}` with the squared distance expanded as `‖Y_b‖² − 2⟨Y_b, A_k⟩ + ‖A_k‖²`. At a row block's
  last tile it writes the row sums of the squared residual `(Y − X·A)²` and the finished locality term; the lines after
  the call take the two means, halve the first, scale the second by a tenth and add. The reference computes the same
  quantities with whole-matrix products and whole-row sums. At the ideal values a change of float format is the identity
  and a matrix product is its sum of products, so the two programs differ only in that the kernel sums the 2048 atoms
  tile by tile; a sum of extended reals does not depend on how it is grouped, and nothing else is used (in particular
  not that the inputs are finite). The idealization rewrote no operation: the idealized kernel is the kernel's own text read at the ideal values.

  Modules: Spec (the loss as sums over row and column numbers, and the tiling of a sum), Payload (the kernel body's
  stored values at an index), Pieces (what each control case of the body leaves), Blocks (the blocks at a grid point as
  entries of the arrays), Invariant (the accumulators point by point), Arrays (the two result columns), Result (the
  kernel program's result is the loss), RefValue (the reference's result is the loss).
-/
import proofs.«165693_j1580547970481_1_alg».proof.Defs
import proofs.«165693_j1580547970481_1_alg».proof.Proof.Gen.Kernel
import proofs.«165693_j1580547970481_1_alg».proof.Proof.Gen.Kernel.Skeleton
import proofs.«165693_j1580547970481_1_alg».proof.Proof.Gen.Kernel.Launch
import proofs.«165693_j1580547970481_1_alg».proof.Proof.Gen.Kernel.Points
import proofs.«165693_j1580547970481_1_alg».proof.Proof.Gen.Kernel.Frame
import proofs.«165693_j1580547970481_1_alg».proof.Proof.Gen.KernelIdeal
import proofs.«165693_j1580547970481_1_alg».proof.Proof.Gen.KernelIdeal.Skeleton
import proofs.«165693_j1580547970481_1_alg».proof.Proof.Gen.KernelIdeal.Launch
import proofs.«165693_j1580547970481_1_alg».proof.Proof.Gen.KernelIdeal.Points
import proofs.«165693_j1580547970481_1_alg».proof.Proof.Gen.KernelIdeal.Frame
import proofs.«165693_j1580547970481_1_alg».proof.Proof.Gen.ReferenceIdeal
import proofs.«165693_j1580547970481_1_alg».proof.Proof.Gen.Pre_finite_inputs
import proofs.«165693_j1580547970481_1_alg».proof.Proof.Gen.ReferenceIdeal.Run
import proofs.«165693_j1580547970481_1_alg».proof.Proof.Gen.ReferenceIdeal.Read
import proofs.«165693_j1580547970481_1_alg».proof.Proof.Result
import proofs.«165693_j1580547970481_1_alg».proof.Proof.RefValue
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference, a straight line of host operations, runs and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments both idealized programs end with the loss of those arguments. -/
theorem algebraic : Cert.algebraic_KernelIdeal_ReferenceIdeal := by
  intro m ρ m' ρ' _ hagree
  refine ⟨fun c => fun _ => DictLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2]
  funext i
  exact Cert.ReferenceIdeal.RefValue.ref_eq _ _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
